-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x256 .f32) (main_arg3 : FVec F S256 .f32) (main_arg4 : FVec F S256x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S5000x128 : Shape := ⟨2, ![5000, 128]⟩
abbrev S5000x256 : Shape := ⟨2, ![5000, 256]⟩
abbrev S850000x256 : Shape := ⟨2, ![850000, 256]⟩
abbrev S1x256 : Shape := ⟨2, ![1, 256]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 95
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x256, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x256, .f32⟩
  | .hbm, ⟨59, _⟩ => ⟨S850000x1, .f32⟩
  | .hbm, ⟨60, _⟩ => ⟨S850000x256, .f32⟩
  | .hbm, ⟨61, _⟩ => ⟨S850000x256, .f32⟩
  | .hbm, ⟨62, _⟩ => ⟨S_, .f32⟩
  | .hbm, ⟨63, _⟩ => ⟨S50000x256, .f32⟩
  | .hbm, ⟨64, _⟩ => ⟨S850000x1, .i32⟩
  | .hbm, ⟨65, _⟩ => ⟨S50000x256, .f32⟩
  | .hbm, ⟨66, _⟩ => ⟨S1x256, .f32⟩
  | .hbm, ⟨67, _⟩ => ⟨S50000x256, .f32⟩
  | .hbm, ⟨68, _⟩ => ⟨S50000x256, .f32⟩
  | .hbm, ⟨69, _⟩ => ⟨S_, .f32⟩
  | .hbm, ⟨70, _⟩ => ⟨S50000x256, .f32⟩
  | .hbm, ⟨71, _⟩ => ⟨S50000x256, .f32⟩
  | .hbm, ⟨72, _⟩ => ⟨S50000x64, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x64, .f32⟩
  | .hbm, ⟨82, _⟩ => ⟨S850000x1, .f32⟩
  | .hbm, ⟨83, _⟩ => ⟨S850000x64, .f32⟩
  | .hbm, ⟨84, _⟩ => ⟨S850000x64, .f32⟩
  | .hbm, ⟨85, _⟩ => ⟨S_, .f32⟩
  | .hbm, ⟨86, _⟩ => ⟨S50000x64, .f32⟩
  | .hbm, ⟨87, _⟩ => ⟨S850000x1, .i32⟩
  | .hbm, ⟨88, _⟩ => ⟨S50000x64, .f32⟩
  | .hbm, ⟨89, _⟩ => ⟨S1x64, .f32⟩
  | .hbm, ⟨90, _⟩ => ⟨S50000x64, .f32⟩
  | .hbm, ⟨91, _⟩ => ⟨S50000x64, .f32⟩
  | .hbm, ⟨92, _⟩ => ⟨S_, .f32⟩
  | .hbm, ⟨93, _⟩ => ⟨S50000x64, .f32⟩
  | .hbm, ⟨94, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256x64, .f32⟩
  | .local _ .vmem, ⟨8, _⟩ => ⟨S5000x64, .f32⟩
  | .local _ .vmem, ⟨9, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_v67 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S5000x256_S5000x256 : S5000x256.ShapeCasts S5000x256
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x256_S5000x256_1_0_0_1_n_n_wf : DotDims.WF S5000x128 S128x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x64_S5000x64_1_0_0_1_n_n_wf : DotDims.WF S5000x256 S256x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .f32 = 32 ∨ (Rect.block (s := S256x64) S256x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 95
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x256, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x256, .f32⟩
  | .hbm, ⟨59, _⟩ => ⟨S850000x1, .f32⟩
  | .hbm, ⟨60, _⟩ => ⟨S850000x256, .f32⟩
  | .hbm, ⟨61, _⟩ => ⟨S850000x256, .f32⟩
  | .hbm, ⟨62, _⟩ => ⟨S_, .f32⟩
  | .hbm, ⟨63, _⟩ => ⟨S50000x256, .f32⟩
  | .hbm, ⟨64, _⟩ => ⟨S850000x1, .i32⟩
  | .hbm, ⟨65, _⟩ => ⟨S50000x256, .f32⟩
  | .hbm, ⟨66, _⟩ => ⟨S1x256, .f32⟩
  | .hbm, ⟨67, _⟩ => ⟨S50000x256, .f32⟩
  | .hbm, ⟨68, _⟩ => ⟨S50000x256, .f32⟩
  | .hbm, ⟨69, _⟩ => ⟨S_, .f32⟩
  | .hbm, ⟨70, _⟩ => ⟨S50000x256, .f32⟩
  | .hbm, ⟨71, _⟩ => ⟨S50000x256, .f32⟩
  | .hbm, ⟨72, _⟩ => ⟨S50000x64, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x64, .f32⟩
  | .hbm, ⟨82, _⟩ => ⟨S850000x1, .f32⟩
  | .hbm, ⟨83, _⟩ => ⟨S850000x64, .f32⟩
  | .hbm, ⟨84, _⟩ => ⟨S850000x64, .f32⟩
  | .hbm, ⟨85, _⟩ => ⟨S_, .f32⟩
  | .hbm, ⟨86, _⟩ => ⟨S50000x64, .f32⟩
  | .hbm, ⟨87, _⟩ => ⟨S850000x1, .i32⟩
  | .hbm, ⟨88, _⟩ => ⟨S50000x64, .f32⟩
  | .hbm, ⟨89, _⟩ => ⟨S1x64, .f32⟩
  | .hbm, ⟨90, _⟩ => ⟨S50000x64, .f32⟩
  | .hbm, ⟨91, _⟩ => ⟨S50000x64, .f32⟩
  | .hbm, ⟨92, _⟩ => ⟨S_, .f32⟩
  | .hbm, ⟨93, _⟩ => ⟨S50000x64, .f32⟩
  | .hbm, ⟨94, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_v67 : Ref sig .tc := ⟨.hbm, 94, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x64_S50000x64_1_0_0_1_n_n_wf : DotDims.WF S50000x256 S256x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.BridgeHost.lean ====
/-
  The two programs apply the SAME host operations around their two matrix products: first the graph's normalisation
  (source and destination node of every edge with the self loops appended, the degree of every node by a scatter-add of
  ones, its inverse square root where the degree is positive, and per edge the product of the two ends' factors), then
  per layer the gather of the source rows, the scaling by the edge's factor, the scatter-add into the destination rows,
  the bias and the rectifier. To compare the programs stretch by stretch, the reference's one list of 89 operations is
  cut where the kernel's program is cut: after the two index lists (7 operations; they end in concatenations, whose
  pieces are read by rewriting), then 36 operations, the first product, 22 operations, the second product, 22
  operations. Running the list is running the pieces in order; the kernel program's first host stretch is cut after
  the same seven operations.
-/
import proofs.«105264_j19774029431674_1_alg».proof.Proof.RefRun
import proofs.«105264_j19774029431674_1_alg».proof.Proof.Gen.KernelIdeal.Launch
import Idealize.ShloMosaic.Lib.StableHlo.Run
import Idealize.ShloMosaic.Lib.Pipeline.Frame

set_option maxRecDepth 16384

noncomputable section

namespace Cert.Bridge

open Idealize.ShloMosaic Idealize.ShloMosaic.TcCoe Idealize.ShloMosaic.StableHlo Idealize.SL.Sem

/-- One operation's result at a buffer, read by rewriting: at the buffer it writes, its function of its operands;
    at any other buffer, what was there. Used where a value sits inside a concatenation's list of pieces, which the
    one-pass reading leaves folded. -/
macro "results_rw" : tactic =>
  `(tactic| (repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))))

variable {F : FTy → Type} [FloatOps F]

/-- The reference's first seven operations: the two index lists (each edge's source, each edge's destination, the self
    loops appended to both), -/
abbrev lA1 : List (HloOp Cert.ReferenceIdeal.τ Cert.ReferenceIdeal.sig (Elt F)) := (Cert.ReferenceIdeal.ValueP.ops (F := F)).take 7
/-- the rest of the normalisation, up to its first product, -/
abbrev lA2 : List (HloOp Cert.ReferenceIdeal.τ Cert.ReferenceIdeal.sig (Elt F)) := ((Cert.ReferenceIdeal.ValueP.ops (F := F)).drop 7).take 36
/-- its first product, -/
abbrev l1 : List (HloOp Cert.ReferenceIdeal.τ Cert.ReferenceIdeal.sig (Elt F)) := ((Cert.ReferenceIdeal.ValueP.ops (F := F)).drop 43).take 1
/-- the operations between the two products, -/
abbrev lB : List (HloOp Cert.ReferenceIdeal.τ Cert.ReferenceIdeal.sig (Elt F)) := ((Cert.ReferenceIdeal.ValueP.ops (F := F)).drop 44).take 22
/-- its second product, -/
abbrev l2 : List (HloOp Cert.ReferenceIdeal.τ Cert.ReferenceIdeal.sig (Elt F)) := ((Cert.ReferenceIdeal.ValueP.ops (F := F)).drop 66).take 1
/-- and the operations after it. -/
abbrev lC : List (HloOp Cert.ReferenceIdeal.τ Cert.ReferenceIdeal.sig (Elt F)) := (Cert.ReferenceIdeal.ValueP.ops (F := F)).drop 67

/-- The reference's list is those six pieces in order. -/
theorem ops_split : (Cert.ReferenceIdeal.ValueP.ops (F := F)) = lA1 ++ (lA2 ++ (l1 ++ (lB ++ (l2 ++ lC)))) := by
  simp only [lA1, lA2, l1, lB, l2, lC, Cert.ReferenceIdeal.ValueP.ops, List.take_succ_cons, List.take_zero, List.drop_succ_cons, List.drop_zero, List.cons_append, List.nil_append]

/-- So running the whole list is running the pieces one after the other. -/
theorem after_ops (W : Valuation Cert.ReferenceIdeal.τ Cert.ReferenceIdeal.sig (Elt F)) :
    after (Cert.ReferenceIdeal.ValueP.ops (F := F)) W = after lC (after l2 (after lB (after l1 (after lA2 (after lA1 W))))) := by
  conv_lhs => rw [ops_split]
  rw [StableHlo.after_append, StableHlo.after_append, StableHlo.after_append, StableHlo.after_append, StableHlo.after_append]

/-- The kernel program's first host stretch, cut after the same seven operations. -/
theorem after_hostOps0 (W : Valuation Cert.KernelIdeal.τ Cert.KernelIdeal.sig (Elt F)) :
    after (Cert.KernelIdeal.Gen.hostOps0 (F := F)) W = after (Cert.KernelIdeal.Gen.hostOps0.drop 7) (after (Cert.KernelIdeal.Gen.hostOps0.take 7) W) := by
  rw [← StableHlo.after_append, List.take_append_drop]

end Cert.Bridge

end
-- ==== Proof.BridgeStretches.lean ====
/-
  Each stretch of host operations the two programs share, run on the kernel's program from contents Wk and on the
  reference from contents Wr, ends with the same value in every buffer that later operations read, provided Wk and
  Wr agree on the buffers the stretch reads: both sides are the same operations of the same inputs, whatever the
  float family. One lemma per buffer: a buffer the stretch computes from its inputs, or one it leaves alone.
-/
import proofs.«105264_j19774029431674_1_alg».proof.Proof.BridgeHost

set_option maxRecDepth 16384

noncomputable section

namespace Cert.Bridge

open Idealize.ShloMosaic Idealize.ShloMosaic.TcCoe Idealize.ShloMosaic.StableHlo Idealize.SL.Sem

variable {F : FTy → Type} [FloatOps F]

/-! ## The two index lists -/

theorem A1_main_v3 (Wk : Valuation Cert.KernelIdeal.τ Cert.KernelIdeal.sig (Elt F)) (Wr : Valuation Cert.ReferenceIdeal.τ Cert.ReferenceIdeal.sig (Elt F)) (h_main_arg1 : Wr (Proc.devRef .tc Cert.ReferenceIdeal.main_arg1) = Wk (Proc.devRef .tc Cert.KernelIdeal.main_arg1)) :
    after (lA1 (F := F)) Wr (Proc.devRef .tc Cert.ReferenceIdeal.main_v3) = after (Cert.KernelIdeal.Gen.hostOps0.take 7) Wk (Proc.devRef .tc Cert.KernelIdeal.main_v3) := by
  simp only [lA1, lA2, l1, lB, l2, lC, Cert.ReferenceIdeal.ValueP.ops, List.take_succ_cons, List.take_zero, List.drop_succ_cons, List.drop_zero, Cert.KernelIdeal.Gen.hostOps0]
  after_results_simp
  results_rw
  rw [h_main_arg1]
  rfl

theorem A1_main_v6 (Wk : Valuation Cert.KernelIdeal.τ Cert.KernelIdeal.sig (Elt F)) (Wr : Valuation Cert.ReferenceIdeal.τ Cert.ReferenceIdeal.sig (Elt F)) (h_main_arg1 : Wr (Proc.devRef .tc Cert.ReferenceIdeal.main_arg1) = Wk (Proc.devRef .tc Cert.KernelIdeal.main_arg1)) :
    after (lA1 (F := F)) Wr (Proc.devRef .tc Cert.ReferenceIdeal.main_v6) = after (Cert.KernelIdeal.Gen.hostOps0.take 7) Wk (Proc.devRef .tc Cert.KernelIdeal.main_v6) := by
  simp only [lA1, lA2, l1, lB, l2, lC, Cert.ReferenceIdeal.ValueP.ops, List.take_succ_cons, List.take_zero, List.drop_succ_cons, List.drop_zero, Cert.KernelIdeal.Gen.hostOps0]
  after_results_simp
  results_rw
  rw [h_main_arg1]
  rfl

theorem A1_main_arg0 (Wk : Valuation Cert.KernelIdeal.τ Cert.KernelIdeal.sig (Elt F)) (Wr : Valuation Cert.ReferenceIdeal.τ Cert.ReferenceIdeal.sig (Elt F)) (h_main_arg0 : Wr (Proc.devRef .tc Cert.ReferenceIdeal.main_arg0) = Wk (Proc.devRef .tc Cert.KernelIdeal.main_arg0)) :
    after (lA1 (F := F)) Wr (Proc.devRef .tc Cert.ReferenceIdeal.main_arg0) = after (Cert.KernelIdeal.Gen.hostOps0.take 7) Wk (Proc.devRef .tc Cert.KernelIdeal.main_arg0) := by
  simp only [lA1, lA2, l1, lB, l2, lC, Cert.ReferenceIdeal.ValueP.ops, List.take_succ_cons, List.take_zero, List.drop_succ_cons, List.drop_zero, Cert.KernelIdeal.Gen.hostOps0]
  after_results_simp
  exact h_main_arg0

theorem A1_main_arg2 (Wk : Valuation Cert.KernelIdeal.τ Cert.KernelIdeal.sig (Elt F)) (Wr : Valuation Cert.ReferenceIdeal.τ Cert.ReferenceIdeal.sig (Elt F)) (h_main_arg2 : Wr (Proc.devRef .tc Cert.ReferenceIdeal.main_arg2) = Wk (Proc.devRef .tc Cert.KernelIdeal.main_arg2)) :
    after (lA1 (F := F)) Wr (Proc.devRef .tc Cert.ReferenceIdeal.main_arg2) = after (Cert.KernelIdeal.Gen.hostOps0.take 7) Wk (Proc.devRef .tc Cert.KernelIdeal.main_arg2) := by
  simp only [lA1, lA2, l1, lB, l2, lC, Cert.ReferenceIdeal.ValueP.ops, List.take_succ_cons, List.take_zero, List.drop_succ_cons, List.drop_zero, Cert.KernelIdeal.Gen.hostOps0]
  after_results_simp
  exact h_main_arg2

theorem A1_main_arg3 (Wk : Valuation Cert.KernelIdeal.τ Cert.KernelIdeal.sig (Elt F)) (Wr : Valuation Cert.ReferenceIdeal.τ Cert.ReferenceIdeal.sig (Elt F)) (h_main_arg3 : Wr (Proc.devRef .tc Cert.ReferenceIdeal.main_arg3) = Wk (Proc.devRef .tc Cert.KernelIdeal.main_arg3)) :
    after (lA1 (F := F)) Wr (Proc.devRef .tc Cert.ReferenceIdeal.main_arg3) = after (Cert.KernelIdeal.Gen.hostOps0.take 7) Wk (Proc.devRef .tc Cert.KernelIdeal.main_arg3) := by
  simp only [lA1, lA2, l1, lB, l2, lC, Cert.ReferenceIdeal.ValueP.ops, List.take_succ_cons, List.take_zero, List.drop_succ_cons, List.drop_zero, Cert.KernelIdeal.Gen.hostOps0]
  after_results_simp
  exact h_main_arg3

theorem A1_main_arg4 (Wk : Valuation Cert.KernelIdeal.τ Cert.KernelIdeal.sig (Elt F)) (Wr : Valuation Cert.ReferenceIdeal.τ Cert.ReferenceIdeal.sig (Elt F)) (h_main_arg4 : Wr (Proc.devRef .tc Cert.ReferenceIdeal.main_arg4) = Wk (Proc.devRef .tc Cert.KernelIdeal.main_arg4)) :
    after (lA1 (F := F)) Wr (Proc.devRef .tc Cert.ReferenceIdeal.main_arg4) = after (Cert.KernelIdeal.Gen.hostOps0.take 7) Wk (Proc.devRef .tc Cert.KernelIdeal.main_arg4) := by
  simp only [lA1, lA2, l1, lB, l2, lC, Cert.ReferenceIdeal.ValueP.ops, List.take_succ_cons, List.take_zero, List.drop_succ_cons, List.drop_zero, Cert.KernelIdeal.Gen.hostOps0]
  after_results_simp
  exact h_main_arg4

theorem A1_main_arg5 (Wk : Valuation Cert.KernelIdeal.τ Cert.KernelIdeal.sig (Elt F)) (Wr : Valuation Cert.ReferenceIdeal.τ Cert.ReferenceIdeal.sig (Elt F)) (h_main_arg5 : Wr (Proc.devRef .tc Cert.ReferenceIdeal.main_arg5) = Wk (Proc.devRef .tc Cert.KernelIdeal.main_arg5)) :
    after (lA1 (F := F)) Wr (Proc.devRef .tc Cert.ReferenceIdeal.main_arg5) = after (Cert.KernelIdeal.Gen.hostOps0.take 7) Wk (Proc.devRef .tc Cert.KernelIdeal.main_arg5) := by
  simp only [lA1, lA2, l1, lB, l2, lC, Cert.ReferenceIdeal.ValueP.ops, List.take_succ_cons, List.take_zero, List.drop_succ_cons, List.drop_zero, Cert.KernelIdeal.Gen.hostOps0]
  after_results_simp
  exact h_main_arg5

/-! ## The rest of the normalisation: degrees, their inverse square roots, the factor of every edge -/

theorem A2_main_v31 (Wk : Valuation Cert.KernelIdeal.τ Cert.KernelIdeal.sig (Elt F)) (Wr : Valuation Cert.ReferenceIdeal.τ Cert.ReferenceIdeal.sig (Elt F)) (h_main_v3 : Wr (Proc.devRef .tc Cert.ReferenceIdeal.main_v3) = Wk (Proc.devRef .tc Cert.KernelIdeal.main_v3)) (h_main_v6 : Wr (Proc.devRef .tc Cert.ReferenceIdeal.main_v6) = Wk (Proc.devRef .tc Cert.KernelIdeal.main_v6)) :
    after (lA2 (F := F)) Wr (Proc.devRef .tc Cert.ReferenceIdeal.main_v31) = after Cert.KernelIdeal.Gen.hostOps0_2 (after Cert.KernelIdeal.Gen.hostOps0_1 (after (Cert.KernelIdeal.Gen.hostOps0.drop 7) Wk)) (Proc.devRef .tc Cert.KernelIdeal.main_v31) := by
  simp only [lA1, lA2, l1, lB, l2, lC, Cert.ReferenceIdeal.ValueP.ops, List.take_succ_cons, List.take_zero, List.drop_succ_cons, List.drop_zero, Cert.KernelIdeal.Gen.hostOps0, Cert.KernelIdeal.Gen.hostOps0_1, Cert.KernelIdeal.Gen.hostOps0_2]
  after_results_simp
  rw [h_main_v3, h_main_v6]
  rfl

theorem A2_main_v3 (Wk : Valuation Cert.KernelIdeal.τ Cert.KernelIdeal.sig (Elt F)) (Wr : Valuation Cert.ReferenceIdeal.τ Cert.ReferenceIdeal.sig (Elt F)) (h_main_v3 : Wr (Proc.devRef .tc Cert.ReferenceIdeal.main_v3) = Wk (Proc.devRef .tc Cert.KernelIdeal.main_v3)) :
    after (lA2 (F := F)) Wr (Proc.devRef .tc Cert.ReferenceIdeal.main_v3) = after Cert.KernelIdeal.Gen.hostOps0_2 (after Cert.KernelIdeal.Gen.hostOps0_1 (after (Cert.KernelIdeal.Gen.hostOps0.drop 7) Wk)) (Proc.devRef .tc Cert.KernelIdeal.main_v3) := by
  simp only [lA1, lA2, l1, lB, l2, lC, Cert.ReferenceIdeal.ValueP.ops, List.take_succ_cons, List.take_zero, List.drop_succ_cons, List.drop_zero, Cert.KernelIdeal.Gen.hostOps0, Cert.KernelIdeal.Gen.hostOps0_1, Cert.KernelIdeal.Gen.hostOps0_2]
  after_results_simp
  exact h_main_v3

theorem A2_main_v6 (Wk : Valuation Cert.KernelIdeal.τ Cert.KernelIdeal.sig (Elt F)) (Wr : Valuation Cert.ReferenceIdeal.τ Cert.ReferenceIdeal.sig (Elt F)) (h_main_v6 : Wr (Proc.devRef .tc Cert.ReferenceIdeal.main_v6) = Wk (Proc.devRef .tc Cert.KernelIdeal.main_v6)) :
    after (lA2 (F := F)) Wr (Proc.devRef .tc Cert.ReferenceIdeal.main_v6) = after Cert.KernelIdeal.Gen.hostOps0_2 (after Cert.KernelIdeal.Gen.hostOps0_1 (after (Cert.KernelIdeal.Gen.hostOps0.drop 7) Wk)) (Proc.devRef .tc Cert.KernelIdeal.main_v6) := by
  simp only [lA1, lA2, l1, lB, l2, lC, Cert.ReferenceIdeal.ValueP.ops, List.take_succ_cons, List.take_zero, List.drop_succ_cons, List.drop_zero, Cert.KernelIdeal.Gen.hostOps0, Cert.KernelIdeal.Gen.hostOps0_1, Cert.KernelIdeal.Gen.hostOps0_2]
  after_results_simp
  exact h_main_v6

theorem A2_main_arg0 (Wk : Valuation Cert.KernelIdeal.τ Cert.KernelIdeal.sig (Elt F)) (Wr : Valuation Cert.ReferenceIdeal.τ Cert.ReferenceIdeal.sig (Elt F)) (h_main_arg0 : Wr (Proc.devRef .tc Cert.ReferenceIdeal.main_arg0) = Wk (Proc.devRef .tc Cert.KernelIdeal.main_arg0)) :
    after (lA2 (F := F)) Wr (Proc.devRef .tc Cert.ReferenceIdeal.main_arg0) = after Cert.KernelIdeal.Gen.hostOps0_2 (after Cert.KernelIdeal.Gen.hostOps0_1 (after (Cert.KernelIdeal.Gen.hostOps0.drop 7) Wk)) (Proc.devRef .tc Cert.KernelIdeal.main_arg0) := by
  simp only [lA1, lA2, l1, lB, l2, lC, Cert.ReferenceIdeal.ValueP.ops, List.take_succ_cons, List.take_zero, List.drop_succ_cons, List.drop_zero, Cert.KernelIdeal.Gen.hostOps0, Cert.KernelIdeal.Gen.hostOps0_1, Cert.KernelIdeal.Gen.hostOps0_2]
  after_results_simp
  exact h_main_arg0

theorem A2_main_arg2 (Wk : Valuation Cert.KernelIdeal.τ Cert.KernelIdeal.sig (Elt F)) (Wr : Valuation Cert.ReferenceIdeal.τ Cert.ReferenceIdeal.sig (Elt F)) (h_main_arg2 : Wr (Proc.devRef .tc Cert.ReferenceIdeal.main_arg2) = Wk (Proc.devRef .tc Cert.KernelIdeal.main_arg2)) :
    after (lA2 (F := F)) Wr (Proc.devRef .tc Cert.ReferenceIdeal.main_arg2) = after Cert.KernelIdeal.Gen.hostOps0_2 (after Cert.KernelIdeal.Gen.hostOps0_1 (after (Cert.KernelIdeal.Gen.hostOps0.drop 7) Wk)) (Proc.devRef .tc Cert.KernelIdeal.main_arg2) := by
  simp only [lA1, lA2, l1, lB, l2, lC, Cert.ReferenceIdeal.ValueP.ops, List.take_succ_cons, List.take_zero, List.drop_succ_cons, List.drop_zero, Cert.KernelIdeal.Gen.hostOps0, Cert.KernelIdeal.Gen.hostOps0_1, Cert.KernelIdeal.Gen.hostOps0_2]
  after_results_simp
  exact h_main_arg2

theorem A2_main_arg3 (Wk : Valuation Cert.KernelIdeal.τ Cert.KernelIdeal.sig (Elt F)) (Wr : Valuation Cert.ReferenceIdeal.τ Cert.ReferenceIdeal.sig (Elt F)) (h_main_arg3 : Wr (Proc.devRef .tc Cert.ReferenceIdeal.main_arg3) = Wk (Proc.devRef .tc Cert.KernelIdeal.main_arg3)) :
    after (lA2 (F := F)) Wr (Proc.devRef .tc Cert.ReferenceIdeal.main_arg3) = after Cert.KernelIdeal.Gen.hostOps0_2 (after Cert.KernelIdeal.Gen.hostOps0_1 (after (Cert.KernelIdeal.Gen.hostOps0.drop 7) Wk)) (Proc.devRef .tc Cert.KernelIdeal.main_arg3) := by
  simp only [lA1, lA2, l1, lB, l2, lC, Cert.ReferenceIdeal.ValueP.ops, List.take_succ_cons, List.take_zero, List.drop_succ_cons, List.drop_zero, Cert.KernelIdeal.Gen.hostOps0, Cert.KernelIdeal.Gen.hostOps0_1, Cert.KernelIdeal.Gen.hostOps0_2]
  after_results_simp
  exact h_main_arg3

theorem A2_main_arg4 (Wk : Valuation Cert.KernelIdeal.τ Cert.KernelIdeal.sig (Elt F)) (Wr : Valuation Cert.ReferenceIdeal.τ Cert.ReferenceIdeal.sig (Elt F)) (h_main_arg4 : Wr (Proc.devRef .tc Cert.ReferenceIdeal.main_arg4) = Wk (Proc.devRef .tc Cert.KernelIdeal.main_arg4)) :
    after (lA2 (F := F)) Wr (Proc.devRef .tc Cert.ReferenceIdeal.main_arg4) = after Cert.KernelIdeal.Gen.hostOps0_2 (after Cert.KernelIdeal.Gen.hostOps0_1 (after (Cert.KernelIdeal.Gen.hostOps0.drop 7) Wk)) (Proc.devRef .tc Cert.KernelIdeal.main_arg4) := by
  simp only [lA1, lA2, l1, lB, l2, lC, Cert.ReferenceIdeal.ValueP.ops, List.take_succ_cons, List.take_zero, List.drop_succ_cons, List.drop_zero, Cert.KernelIdeal.Gen.hostOps0, Cert.KernelIdeal.Gen.hostOps0_1, Cert.KernelIdeal.Gen.hostOps0_2]
  after_results_simp
  exact h_main_arg4

theorem A2_main_arg5 (Wk : Valuation Cert.KernelIdeal.τ Cert.KernelIdeal.sig (Elt F)) (Wr : Valuation Cert.ReferenceIdeal.τ Cert.ReferenceIdeal.sig (Elt F)) (h_main_arg5 : Wr (Proc.devRef .tc Cert.ReferenceIdeal.main_arg5) = Wk (Proc.devRef .tc Cert.KernelIdeal.main_arg5)) :
    after (lA2 (F := F)) Wr (Proc.devRef .tc Cert.ReferenceIdeal.main_arg5) = after Cert.KernelIdeal.Gen.hostOps0_2 (after Cert.KernelIdeal.Gen.hostOps0_1 (after (Cert.KernelIdeal.Gen.hostOps0.drop 7) Wk)) (Proc.devRef .tc Cert.KernelIdeal.main_arg5) := by
  simp only [lA1, lA2, l1, lB, l2, lC, Cert.ReferenceIdeal.ValueP.ops, List.take_succ_cons, List.take_zero, List.drop_succ_cons, List.drop_zero, Cert.KernelIdeal.Gen.hostOps0, Cert.KernelIdeal.Gen.hostOps0_1, Cert.KernelIdeal.Gen.hostOps0_2]
  after_results_simp
  exact h_main_arg5

/-! ## Between the products: the first layer's aggregation, bias and rectifier -/

theorem B_main_v49 (Wk : Valuation Cert.KernelIdeal.τ Cert.KernelIdeal.sig (Elt F)) (Wr : Valuation Cert.ReferenceIdeal.τ Cert.ReferenceIdeal.sig (Elt F)) (h_main_v32 : Wr (Proc.devRef .tc Cert.ReferenceIdeal.main_v32) = Wk (Proc.devRef .tc Cert.KernelIdeal.main_v32)) (h_main_v3 : Wr (Proc.devRef .tc Cert.ReferenceIdeal.main_v3) = Wk (Proc.devRef .tc Cert.KernelIdeal.main_v3)) (h_main_v6 : Wr (Proc.devRef .tc Cert.ReferenceIdeal.main_v6) = Wk (Proc.devRef .tc Cert.KernelIdeal.main_v6)) (h_main_v31 : Wr (Proc.devRef .tc Cert.ReferenceIdeal.main_v31) = Wk (Proc.devRef .tc Cert.KernelIdeal.main_v31)) (h_main_arg3 : Wr (Proc.devRef .tc Cert.ReferenceIdeal.main_arg3) = Wk (Proc.devRef .tc Cert.KernelIdeal.main_arg3)) :
    after (lB (F := F)) Wr (Proc.devRef .tc Cert.ReferenceIdeal.main_v49) = after Cert.KernelIdeal.Gen.hostOps1_1 (after Cert.KernelIdeal.Gen.hostOps1 Wk) (Proc.devRef .tc Cert.KernelIdeal.main_v49) := by
  simp only [lA1, lA2, l1, lB, l2, lC, Cert.ReferenceIdeal.ValueP.ops, List.take_succ_cons, List.take_zero, List.drop_succ_cons, List.drop_zero, Cert.KernelIdeal.Gen.hostOps1, Cert.KernelIdeal.Gen.hostOps1_1]
  after_results_simp
  rw [h_main_v32, h_main_v3, h_main_v6, h_main_v31, h_main_arg3]
  rfl

theorem B_main_v3 (Wk : Valuation Cert.KernelIdeal.τ Cert.KernelIdeal.sig (Elt F)) (Wr : Valuation Cert.ReferenceIdeal.τ Cert.ReferenceIdeal.sig (Elt F)) (h_main_v3 : Wr (Proc.devRef .tc Cert.ReferenceIdeal.main_v3) = Wk (Proc.devRef .tc Cert.KernelIdeal.main_v3)) :
    after (lB (F := F)) Wr (Proc.devRef .tc Cert.ReferenceIdeal.main_v3) = after Cert.KernelIdeal.Gen.hostOps1_1 (after Cert.KernelIdeal.Gen.hostOps1 Wk) (Proc.devRef .tc Cert.KernelIdeal.main_v3) := by
  simp only [lA1, lA2, l1, lB, l2, lC, Cert.ReferenceIdeal.ValueP.ops, List.take_succ_cons, List.take_zero, List.drop_succ_cons, List.drop_zero, Cert.KernelIdeal.Gen.hostOps1, Cert.KernelIdeal.Gen.hostOps1_1]
  after_results_simp
  exact h_main_v3

theorem B_main_v6 (Wk : Valuation Cert.KernelIdeal.τ Cert.KernelIdeal.sig (Elt F)) (Wr : Valuation Cert.ReferenceIdeal.τ Cert.ReferenceIdeal.sig (Elt F)) (h_main_v6 : Wr (Proc.devRef .tc Cert.ReferenceIdeal.main_v6) = Wk (Proc.devRef .tc Cert.KernelIdeal.main_v6)) :
    after (lB (F := F)) Wr (Proc.devRef .tc Cert.ReferenceIdeal.main_v6) = after Cert.KernelIdeal.Gen.hostOps1_1 (after Cert.KernelIdeal.Gen.hostOps1 Wk) (Proc.devRef .tc Cert.KernelIdeal.main_v6) := by
  simp only [lA1, lA2, l1, lB, l2, lC, Cert.ReferenceIdeal.ValueP.ops, List.take_succ_cons, List.take_zero, List.drop_succ_cons, List.drop_zero, Cert.KernelIdeal.Gen.hostOps1, Cert.KernelIdeal.Gen.hostOps1_1]
  after_results_simp
  exact h_main_v6

theorem B_main_v31 (Wk : Valuation Cert.KernelIdeal.τ Cert.KernelIdeal.sig (Elt F)) (Wr : Valuation Cert.ReferenceIdeal.τ Cert.ReferenceIdeal.sig (Elt F)) (h_main_v31 : Wr (Proc.devRef .tc Cert.ReferenceIdeal.main_v31) = Wk (Proc.devRef .tc Cert.KernelIdeal.main_v31)) :
    after (lB (F := F)) Wr (Proc.devRef .tc Cert.ReferenceIdeal.main_v31) = after Cert.KernelIdeal.Gen.hostOps1_1 (after Cert.KernelIdeal.Gen.hostOps1 Wk) (Proc.devRef .tc Cert.KernelIdeal.main_v31) := by
  simp only [lA1, lA2, l1, lB, l2, lC, Cert.ReferenceIdeal.ValueP.ops, List.take_succ_cons, List.take_zero, List.drop_succ_cons, List.drop_zero, Cert.KernelIdeal.Gen.hostOps1, Cert.KernelIdeal.Gen.hostOps1_1]
  after_results_simp
  exact h_main_v31

theorem B_main_arg4 (Wk : Valuation Cert.KernelIdeal.τ Cert.KernelIdeal.sig (Elt F)) (Wr : Valuation Cert.ReferenceIdeal.τ Cert.ReferenceIdeal.sig (Elt F)) (h_main_arg4 : Wr (Proc.devRef .tc Cert.ReferenceIdeal.main_arg4) = Wk (Proc.devRef .tc Cert.KernelIdeal.main_arg4)) :
    after (lB (F := F)) Wr (Proc.devRef .tc Cert.ReferenceIdeal.main_arg4) = after Cert.KernelIdeal.Gen.hostOps1_1 (after Cert.KernelIdeal.Gen.hostOps1 Wk) (Proc.devRef .tc Cert.KernelIdeal.main_arg4) := by
  simp only [lA1, lA2, l1, lB, l2, lC, Cert.ReferenceIdeal.ValueP.ops, List.take_succ_cons, List.take_zero, List.drop_succ_cons, List.drop_zero, Cert.KernelIdeal.Gen.hostOps1, Cert.KernelIdeal.Gen.hostOps1_1]
  after_results_simp
  exact h_main_arg4

theorem B_main_arg5 (Wk : Valuation Cert.KernelIdeal.τ Cert.KernelIdeal.sig (Elt F)) (Wr : Valuation Cert.ReferenceIdeal.τ Cert.ReferenceIdeal.sig (Elt F)) (h_main_arg5 : Wr (Proc.devRef .tc Cert.ReferenceIdeal.main_arg5) = Wk (Proc.devRef .tc Cert.KernelIdeal.main_arg5)) :
    after (lB (F := F)) Wr (Proc.devRef .tc Cert.ReferenceIdeal.main_arg5) = after Cert.KernelIdeal.Gen.hostOps1_1 (after Cert.KernelIdeal.Gen.hostOps1 Wk) (Proc.devRef .tc Cert.KernelIdeal.main_arg5) := by
  simp only [lA1, lA2, l1, lB, l2, lC, Cert.ReferenceIdeal.ValueP.ops, List.take_succ_cons, List.take_zero, List.drop_succ_cons, List.drop_zero, Cert.KernelIdeal.Gen.hostOps1, Cert.KernelIdeal.Gen.hostOps1_1]
  after_results_simp
  exact h_main_arg5

/-! ## After the second product: the second layer's aggregation, bias and rectifier -/

theorem C_main_v67 (Wk : Valuation Cert.KernelIdeal.τ Cert.KernelIdeal.sig (Elt F)) (Wr : Valuation Cert.ReferenceIdeal.τ Cert.ReferenceIdeal.sig (Elt F)) (h_main_v50 : Wr (Proc.devRef .tc Cert.ReferenceIdeal.main_v50) = Wk (Proc.devRef .tc Cert.KernelIdeal.main_v50)) (h_main_v3 : Wr (Proc.devRef .tc Cert.ReferenceIdeal.main_v3) = Wk (Proc.devRef .tc Cert.KernelIdeal.main_v3)) (h_main_v6 : Wr (Proc.devRef .tc Cert.ReferenceIdeal.main_v6) = Wk (Proc.devRef .tc Cert.KernelIdeal.main_v6)) (h_main_v31 : Wr (Proc.devRef .tc Cert.ReferenceIdeal.main_v31) = Wk (Proc.devRef .tc Cert.KernelIdeal.main_v31)) (h_main_arg5 : Wr (Proc.devRef .tc Cert.ReferenceIdeal.main_arg5) = Wk (Proc.devRef .tc Cert.KernelIdeal.main_arg5)) :
    after (lC (F := F)) Wr (Proc.devRef .tc Cert.ReferenceIdeal.main_v67) = after Cert.KernelIdeal.Gen.hostOps2_1 (after Cert.KernelIdeal.Gen.hostOps2 Wk) (Proc.devRef .tc Cert.KernelIdeal.main_v67) := by
  simp only [lA1, lA2, l1, lB, l2, lC, Cert.ReferenceIdeal.ValueP.ops, List.take_succ_cons, List.take_zero, List.drop_succ_cons, List.drop_zero, Cert.KernelIdeal.Gen.hostOps2, Cert.KernelIdeal.Gen.hostOps2_1]
  after_results_simp
  rw [h_main_v50, h_main_v3, h_main_v6, h_main_v31, h_main_arg5]
  rfl

end Cert.Bridge

end
-- ==== Proof.BridgeKeeps.lean ====
/-
  A matrix product writes its result array and nothing else: the reference's one host operation leaves every other
  buffer as it was, and the kernel's region leaves every buffer that is not one of its three arrays as it was. So
  where the two programs' contents agreed on such a buffer before the product they agree on it after.
-/
import proofs.«105264_j19774029431674_1_alg».proof.Proof.BridgeHost
import proofs.«105264_j19774029431674_1_alg».proof.Proof.Gen.KernelIdeal.Frame
import Idealize.ShloMosaic.PureOps.Ideal

set_option maxRecDepth 16384

noncomputable section

namespace Cert.Bridge

open Idealize.ShloMosaic Idealize.ShloMosaic.TcCoe Idealize.ShloMosaic.StableHlo Idealize.SL.Sem

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-! ## What the first product leaves alone -/

theorem D1_main_v3 (Wr : Valuation Cert.ReferenceIdeal.τ Cert.ReferenceIdeal.sig (Elt Ideal)) (h_main_v3 : Wr (Proc.devRef .tc Cert.ReferenceIdeal.main_v3) = Cert.KernelIdeal.Gen.W3 m ρ c (Proc.devRef .tc Cert.KernelIdeal.main_v3)) :
    after (l1 (F := Ideal)) Wr (Proc.devRef .tc Cert.ReferenceIdeal.main_v3) = Cert.KernelIdeal.Gen.W4 m ρ c (Proc.devRef .tc Cert.KernelIdeal.main_v3) := by
  rw [Cert.KernelIdeal.Gen.W4_of_ne m ρ c Cert.KernelIdeal.main_v3 (by intro w; fin_cases w <;> decide), ← h_main_v3]
  simp only [lA1, lA2, l1, lB, l2, lC, Cert.ReferenceIdeal.ValueP.ops, List.take_succ_cons, List.take_zero, List.drop_succ_cons, List.drop_zero]
  after_results_simp

theorem D1_main_v6 (Wr : Valuation Cert.ReferenceIdeal.τ Cert.ReferenceIdeal.sig (Elt Ideal)) (h_main_v6 : Wr (Proc.devRef .tc Cert.ReferenceIdeal.main_v6) = Cert.KernelIdeal.Gen.W3 m ρ c (Proc.devRef .tc Cert.KernelIdeal.main_v6)) :
    after (l1 (F := Ideal)) Wr (Proc.devRef .tc Cert.ReferenceIdeal.main_v6) = Cert.KernelIdeal.Gen.W4 m ρ c (Proc.devRef .tc Cert.KernelIdeal.main_v6) := by
  rw [Cert.KernelIdeal.Gen.W4_of_ne m ρ c Cert.KernelIdeal.main_v6 (by intro w; fin_cases w <;> decide), ← h_main_v6]
  simp only [lA1, lA2, l1, lB, l2, lC, Cert.ReferenceIdeal.ValueP.ops, List.take_succ_cons, List.take_zero, List.drop_succ_cons, List.drop_zero]
  after_results_simp

theorem D1_main_v31 (Wr : Valuation Cert.ReferenceIdeal.τ Cert.ReferenceIdeal.sig (Elt Ideal)) (h_main_v31 : Wr (Proc.devRef .tc Cert.ReferenceIdeal.main_v31) = Cert.KernelIdeal.Gen.W3 m ρ c (Proc.devRef .tc Cert.KernelIdeal.main_v31)) :
    after (l1 (F := Ideal)) Wr (Proc.devRef .tc Cert.ReferenceIdeal.main_v31) = Cert.KernelIdeal.Gen.W4 m ρ c (Proc.devRef .tc Cert.KernelIdeal.main_v31) := by
  rw [Cert.KernelIdeal.Gen.W4_of_ne m ρ c Cert.KernelIdeal.main_v31 (by intro w; fin_cases w <;> decide), ← h_main_v31]
  simp only [lA1, lA2, l1, lB, l2, lC, Cert.ReferenceIdeal.ValueP.ops, List.take_succ_cons, List.take_zero, List.drop_succ_cons, List.drop_zero]
  after_results_simp

theorem D1_main_arg3 (Wr : Valuation Cert.ReferenceIdeal.τ Cert.ReferenceIdeal.sig (Elt Ideal)) (h_main_arg3 : Wr (Proc.devRef .tc Cert.ReferenceIdeal.main_arg3) = Cert.KernelIdeal.Gen.W3 m ρ c (Proc.devRef .tc Cert.KernelIdeal.main_arg3)) :
    after (l1 (F := Ideal)) Wr (Proc.devRef .tc Cert.ReferenceIdeal.main_arg3) = Cert.KernelIdeal.Gen.W4 m ρ c (Proc.devRef .tc Cert.KernelIdeal.main_arg3) := by
  rw [Cert.KernelIdeal.Gen.W4_of_ne m ρ c Cert.KernelIdeal.main_arg3 (by intro w; fin_cases w <;> decide), ← h_main_arg3]
  simp only [lA1, lA2, l1, lB, l2, lC, Cert.ReferenceIdeal.ValueP.ops, List.take_succ_cons, List.take_zero, List.drop_succ_cons, List.drop_zero]
  after_results_simp

theorem D1_main_arg4 (Wr : Valuation Cert.ReferenceIdeal.τ Cert.ReferenceIdeal.sig (Elt Ideal)) (h_main_arg4 : Wr (Proc.devRef .tc Cert.ReferenceIdeal.main_arg4) = Cert.KernelIdeal.Gen.W3 m ρ c (Proc.devRef .tc Cert.KernelIdeal.main_arg4)) :
    after (l1 (F := Ideal)) Wr (Proc.devRef .tc Cert.ReferenceIdeal.main_arg4) = Cert.KernelIdeal.Gen.W4 m ρ c (Proc.devRef .tc Cert.KernelIdeal.main_arg4) := by
  rw [Cert.KernelIdeal.Gen.W4_of_ne m ρ c Cert.KernelIdeal.main_arg4 (by intro w; fin_cases w <;> decide), ← h_main_arg4]
  simp only [lA1, lA2, l1, lB, l2, lC, Cert.ReferenceIdeal.ValueP.ops, List.take_succ_cons, List.take_zero, List.drop_succ_cons, List.drop_zero]
  after_results_simp

theorem D1_main_arg5 (Wr : Valuation Cert.ReferenceIdeal.τ Cert.ReferenceIdeal.sig (Elt Ideal)) (h_main_arg5 : Wr (Proc.devRef .tc Cert.ReferenceIdeal.main_arg5) = Cert.KernelIdeal.Gen.W3 m ρ c (Proc.devRef .tc Cert.KernelIdeal.main_arg5)) :
    after (l1 (F := Ideal)) Wr (Proc.devRef .tc Cert.ReferenceIdeal.main_arg5) = Cert.KernelIdeal.Gen.W4 m ρ c (Proc.devRef .tc Cert.KernelIdeal.main_arg5) := by
  rw [Cert.KernelIdeal.Gen.W4_of_ne m ρ c Cert.KernelIdeal.main_arg5 (by intro w; fin_cases w <;> decide), ← h_main_arg5]
  simp only [lA1, lA2, l1, lB, l2, lC, Cert.ReferenceIdeal.ValueP.ops, List.take_succ_cons, List.take_zero, List.drop_succ_cons, List.drop_zero]
  after_results_simp

/-! ## What the second product leaves alone -/

theorem D2_main_v3 (Wr : Valuation Cert.ReferenceIdeal.τ Cert.ReferenceIdeal.sig (Elt Ideal)) (h_main_v3 : Wr (Proc.devRef .tc Cert.ReferenceIdeal.main_v3) = Cert.KernelIdeal.Gen.W6 m ρ c (Proc.devRef .tc Cert.KernelIdeal.main_v3)) :
    after (l2 (F := Ideal)) Wr (Proc.devRef .tc Cert.ReferenceIdeal.main_v3) = Cert.KernelIdeal.Gen.W7 m ρ c (Proc.devRef .tc Cert.KernelIdeal.main_v3) := by
  rw [Cert.KernelIdeal.Gen.W7_of_ne m ρ c Cert.KernelIdeal.main_v3 (by intro w; fin_cases w <;> decide), ← h_main_v3]
  simp only [lA1, lA2, l1, lB, l2, lC, Cert.ReferenceIdeal.ValueP.ops, List.take_succ_cons, List.take_zero, List.drop_succ_cons, List.drop_zero]
  after_results_simp

theorem D2_main_v6 (Wr : Valuation Cert.ReferenceIdeal.τ Cert.ReferenceIdeal.sig (Elt Ideal)) (h_main_v6 : Wr (Proc.devRef .tc Cert.ReferenceIdeal.main_v6) = Cert.KernelIdeal.Gen.W6 m ρ c (Proc.devRef .tc Cert.KernelIdeal.main_v6)) :
    after (l2 (F := Ideal)) Wr (Proc.devRef .tc Cert.ReferenceIdeal.main_v6) = Cert.KernelIdeal.Gen.W7 m ρ c (Proc.devRef .tc Cert.KernelIdeal.main_v6) := by
  rw [Cert.KernelIdeal.Gen.W7_of_ne m ρ c Cert.KernelIdeal.main_v6 (by intro w; fin_cases w <;> decide), ← h_main_v6]
  simp only [lA1, lA2, l1, lB, l2, lC, Cert.ReferenceIdeal.ValueP.ops, List.take_succ_cons, List.take_zero, List.drop_succ_cons, List.drop_zero]
  after_results_simp

theorem D2_main_v31 (Wr : Valuation Cert.ReferenceIdeal.τ Cert.ReferenceIdeal.sig (Elt Ideal)) (h_main_v31 : Wr (Proc.devRef .tc Cert.ReferenceIdeal.main_v31) = Cert.KernelIdeal.Gen.W6 m ρ c (Proc.devRef .tc Cert.KernelIdeal.main_v31)) :
    after (l2 (F := Ideal)) Wr (Proc.devRef .tc Cert.ReferenceIdeal.main_v31) = Cert.KernelIdeal.Gen.W7 m ρ c (Proc.devRef .tc Cert.KernelIdeal.main_v31) := by
  rw [Cert.KernelIdeal.Gen.W7_of_ne m ρ c Cert.KernelIdeal.main_v31 (by intro w; fin_cases w <;> decide), ← h_main_v31]
  simp only [lA1, lA2, l1, lB, l2, lC, Cert.ReferenceIdeal.ValueP.ops, List.take_succ_cons, List.take_zero, List.drop_succ_cons, List.drop_zero]
  after_results_simp

theorem D2_main_arg5 (Wr : Valuation Cert.ReferenceIdeal.τ Cert.ReferenceIdeal.sig (Elt Ideal)) (h_main_arg5 : Wr (Proc.devRef .tc Cert.ReferenceIdeal.main_arg5) = Cert.KernelIdeal.Gen.W6 m ρ c (Proc.devRef .tc Cert.KernelIdeal.main_arg5)) :
    after (l2 (F := Ideal)) Wr (Proc.devRef .tc Cert.ReferenceIdeal.main_arg5) = Cert.KernelIdeal.Gen.W7 m ρ c (Proc.devRef .tc Cert.KernelIdeal.main_arg5) := by
  rw [Cert.KernelIdeal.Gen.W7_of_ne m ρ c Cert.KernelIdeal.main_arg5 (by intro w; fin_cases w <;> decide), ← h_main_arg5]
  simp only [lA1, lA2, l1, lB, l2, lC, Cert.ReferenceIdeal.ValueP.ops, List.take_succ_cons, List.take_zero, List.drop_succ_cons, List.drop_zero]
  after_results_simp

end Cert.Bridge

end
-- ==== Proof.LibPlainDot.lean ====
/-
  A matrix product of an [R, K] operand by a [K, C] operand, contracted over the one shared axis (the
  dimension numbers lhs_contracting = [1], rhs_contracting = [0], no batch axes), read at an entry (p, q) on the
  extended reals: the plain sum over k of l(p, k) · r(k, q). Stated for ANY dimension-number record of that
  form, so that it serves every such product whatever the record's name and whatever R, K, C are.
-/
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

/-- The dimension numbers of a plain row-by-column product: the left operand's axis 1 is contracted with the right
    operand's axis 0; the left operand's axis 0 and the right operand's axis 1 survive, in that order; no batch axes. -/
structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

/-- The host's matrix product read at (p, q). -/
theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.LibMatProd.lean ====
/-
  The plain matrix product of an [R, K] array by a [K, C] array on the extended reals, as ONE function of its two
  operands: entry (p, q) is the sum over k of l(p, k) · r(k, q). A kernel's product into a zero accumulator and the
  host's product, each under dimension numbers of the plain form (contract the left operand's axis 1 with the right
  operand's axis 0, no batch axes), ARE this function, whatever the extents and whatever the record's name.
-/
import proofs.«105264_j19774029431674_1_alg».proof.Proof.LibPlainDot

noncomputable section

namespace Idealize.ShloMosaic.PlainDot

open Idealize.ShloMosaic Idealize.ShloMosaic.ValueIdx

variable {R K C : ℕ}

/-- The product of `l` by `r`: entry (p, q) is the sum over the shared axis of l(p, k) · r(k, q). -/
def prod (l : (⟨2, ![R, K]⟩ : Shape).Idx → EReal) (r : (⟨2, ![K, C]⟩ : Shape).Idx → EReal) :
    (⟨2, ![R, C]⟩ : Shape).Idx → EReal :=
  fun j => ∑ k : Fin K, l (ix2 (j 0) k) * r (ix2 k (j 1))

/-- The product read at an entry given by its two coordinates. -/
theorem prod_apply (l : (⟨2, ![R, K]⟩ : Shape).Idx → EReal) (r : (⟨2, ![K, C]⟩ : Shape).Idx → EReal) (p : Fin R) (q : Fin C) :
    prod l r (ix2 p q) = ∑ k : Fin K, l (ix2 p k) * r (ix2 k q) := rfl

variable {d : DotDims ⟨2, ![R, K]⟩ ⟨2, ![K, C]⟩ ⟨2, ![R, C]⟩}

/-- A kernel's matrix product into a zero accumulator is the product, as a whole array. -/
theorem matmul_zero_eq_prod (h : IsPlain d) {φ₁ φ₂ : FTy} (prec : Option ContractPrecision)
    (l : FVec Ideal ⟨2, ![R, K]⟩ φ₁) (r : FVec Ideal ⟨2, ![K, C]⟩ φ₂) :
    FloatOps.matmul d prec l r (constant ⟨2, ![R, C]⟩ .f32 0x00000000#32) = prod l r := by
  funext j
  obtain ⟨p, q, rfl⟩ : ∃ (p : Fin R) (q : Fin C), j = ix2 p q := ⟨j 0, j 1, eq_ix2 j⟩
  exact (matmul_zero_apply h prec l r p q).trans (prod_apply l r p q).symm

/-- The host's matrix product is the product, as a whole array. -/
theorem dotGeneral_eq_prod (h : IsPlain d) {φ₁ φ₂ : FTy} (prec : Option ContractPrecision) (sched : HostSchedule)
    (l : FVec Ideal ⟨2, ![R, K]⟩ φ₁) (r : FVec Ideal ⟨2, ![K, C]⟩ φ₂) :
    FloatOps.dotGeneral d prec sched l r = prod l r := by
  funext j
  obtain ⟨p, q, rfl⟩ : ∃ (p : Fin R) (q : Fin C), j = ix2 p q := ⟨j 0, j 1, eq_ix2 j⟩
  exact (dotGeneral_apply h prec sched l r p q).trans (prod_apply l r p q).symm

end Idealize.ShloMosaic.PlainDot

end
-- ==== Proof.Region0.lean ====
/-
  The first product. Each of the ten grid points t multiplies rows 5000·t … 5000·t + 4999 of the left operand (all
  128 columns) by the whole 128 × 256 right operand, and writes the 5000 × 256 block back to the same rows of the
  result. On the extended reals the narrowing of the operands to bf16 is the identity and the product into a zero
  accumulator is the plain sum over k, so what point t writes back is block t of the product of the two WHOLE arrays;
  the ten blocks tile the 50000 rows, so the array ends holding that product: entry (p, q) = Σ_k A(p, k) · B(k, q),
  whatever contents V the region is entered at.
-/
import proofs.«105264_j19774029431674_1_alg».proof.Proof.Gen.KernelIdeal.Frame
import proofs.«105264_j19774029431674_1_alg».proof.Proof.LibMatProd
import Idealize.ShloMosaic.Lib.Pipeline.Value
import Idealize.ShloMosaic.Lib.ValueIdx

set_option maxRecDepth 16384

noncomputable section

namespace Cert.KernelIdeal.Rows0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The kernel's dimension numbers are the plain row-by-column ones. -/
theorem plain : PlainDot.IsPlain dot_S5000x128_S128x256_S5000x256_1_0_0_1_n_n := ⟨rfl, rfl, rfl, rfl, rfl, rfl⟩

/-- What the body stores is the product of the two blocks it loads. -/
theorem pay_eq (x0 : Vec Ideal S5000x128 .f32) (x1 : Vec Ideal S128x256 .f32) :
    k0_pay1 x0 x1 = PlainDot.prod x0 x1 := by
  unfold k0_pay1
  exact PlainDot.matmul_zero_eq_prod plain none _ _

/-- The block indices over the grid: the left operand's and the result's row block is the point's number, every
    column block is 0, and the right operand's block is always (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem row_lt (t : Fin cfg0.N) (p : Fin 5000) : 5000 * t.val + p.val < 50000 := by
  have h : t.val < 10 := Nat.lt_of_lt_of_eq t.isLt N_0
  have := p.isLt; omega

/-- The left operand's block at point t is rows 5000·t … of the array. -/
theorem lhs_blk (c : Dev nD) (t : Fin cfg0.N) (p : Fin 5000) (k : Fin 128) :
    (iblk0 V c 0 t : Vec Ideal S5000x128 .f32) (ix2 p k)
      = (V c main_arg0 : S50000x128.Idx → EReal) (ix2 ⟨5000 * t.val + p.val, row_lt t p⟩ k) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

/-- The right operand's block at every point is the whole array. -/
theorem rhs_blk (c : Dev nD) (t : Fin cfg0.N) :
    (iblk0 V c 1 t : Vec Ideal S128x256 .f32) = (V c main_arg2 : S128x256.Idx → EReal) := by
  obtain ⟨-, -, e2, e3, -⟩ := idx_facts t
  funext y
  unfold iblk0
  rw [View.read_apply]
  show V c main_arg2 _ = V c main_arg2 _
  congr 1
  funext a
  apply Fin.ext
  match a with
  | ⟨0, _⟩ => show win0_1.index t (0 : Fin 2) * 128 + 1 * (y 0).val = (y 0).val; rw [e2]; omega
  | ⟨1, _⟩ => show win0_1.index t (1 : Fin 2) * 256 + 1 * (y 1).val = (y 1).val; rw [e3]; omega

/-- WHAT POINT t WRITES BACK is block t of the product of the two whole arrays. -/
theorem flushed_eq (c : Dev nD) (t : Fin cfg0.N) :
    (dat0 V c).flushed 2 t = ((cfg0.win 2).blk t).view.read (Elt Ideal)
      (PlainDot.prod (V c main_arg0 : S50000x128.Idx → EReal) (V c main_arg2 : S128x256.Idx → EReal)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x256) hz]
  rw [pay_eq, rhs_blk V c t]
  obtain ⟨-, -, -, -, e4, e5⟩ := idx_facts t
  funext j
  obtain ⟨p, q, rfl⟩ : ∃ (p : Fin 5000) (q : Fin 256), j = ix2 p q := ⟨j 0, j 1, eq_ix2 j⟩
  rw [View.read_apply]
  have hemb : ((cfg0.win 2).blk t).view.emb (ix2 p q) = (ix2 ⟨5000 * t.val + p.val, row_lt t p⟩ q : S50000x256.Idx) := by
    funext a
    apply Fin.ext
    match a with
    | ⟨0, _⟩ => show win0_2.index t (0 : Fin 2) * 5000 + 1 * p.val = 5000 * t.val + p.val; rw [e4]; omega
    | ⟨1, _⟩ => show win0_2.index t (1 : Fin 2) * 256 + 1 * q.val = q.val; rw [e5]; omega
  rw [hemb]
  show PlainDot.prod (iblk0 V c 0 t : Vec Ideal S5000x128 .f32) (V c main_arg2 : S128x256.Idx → EReal) (ix2 p q) = _
  rw [PlainDot.prod_apply, PlainDot.prod_apply]
  exact Finset.sum_congr rfl fun k _ => by rw [lhs_blk V c t p k]

/-- An index of the result array is in point t's block iff each coordinate is in the block's range on its axis. -/
theorem mem_blk (t : Fin cfg0.N) (i : S50000x256.Idx) :
    i ∈ ((cfg0.win 2).blk t).view.set ↔ ∀ a : Fin 2, win0_2.index t a * S5000x256.size a ≤ (i a).val
      ∧ (i a).val < win0_2.index t a * S5000x256.size a + S5000x256.size a := by
  show i ∈ ((View.whole main_v32).slice (win0_2.rect t)).set ↔ _
  rw [View.set_slice_whole, Rect.mem_set_unit]
  exact Iff.rfl

/-- The ten row blocks tile the array: row r is in the block of point r / 5000. -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ : ∃ t : Fin cfg0.N, t.val = (i 0).val / 5000 :=
    ⟨⟨(i 0).val / 5000, by rw [show cfg0.N = 10 from N_0]; omega⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    rw [e4, ht]; omega
  | ⟨1, _⟩ =>
    show win0_2.index t (1 : Fin 2) * 256 ≤ (i 1).val ∧ (i 1).val < win0_2.index t (1 : Fin 2) * 256 + 256
    rw [e5]; omega

/-- THE RESULT ARRAY after the region: the product of the two whole arrays as the region found them. -/
theorem array_eq (c : Dev nD) :
    (dat0 V c).arrAt 2 cfg0.N
      = PlainDot.prod (V c main_arg0 : S50000x128.Idx → EReal) (V c main_arg2 : S128x256.Idx → EReal) :=
  (dat0 V c).arrAt_eq_of_cover 2 _ (fun t _ => flushed_eq V c t) cover

end Cert.KernelIdeal.Rows0

end
-- ==== Proof.Region1.lean ====
/-
  The second product. Each of the ten grid points t multiplies rows 5000·t … 5000·t + 4999 of the left operand (all
  256 columns; the body first reshapes the block to its own shape, the identity) by the whole 256 × 64 right operand,
  and writes the 5000 × 64 block back to the same rows of the result. On the extended reals the narrowing to bf16 is
  the identity and the product into a zero accumulator is the plain sum over k, so what point t writes back is block
  t of the product of the two WHOLE arrays; the ten blocks tile the 50000 rows, so the array ends holding that
  product: entry (p, q) = Σ_k A(p, k) · B(k, q), whatever contents V the region is entered at.
-/
import proofs.«105264_j19774029431674_1_alg».proof.Proof.Gen.KernelIdeal.Frame
import proofs.«105264_j19774029431674_1_alg».proof.Proof.LibMatProd
import Idealize.ShloMosaic.Lib.Pipeline.Value
import Idealize.ShloMosaic.Lib.ValueIdx

set_option maxRecDepth 16384

noncomputable section

namespace Cert.KernelIdeal.Rows1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The kernel's dimension numbers are the plain row-by-column ones. -/
theorem plain : PlainDot.IsPlain dot_S5000x256_S256x64_S5000x64_1_0_0_1_n_n := ⟨rfl, rfl, rfl, rfl, rfl, rfl⟩

/-- What the body stores is the product of the two blocks it loads. -/
theorem pay_eq (x0 : Vec Ideal S5000x256 .f32) (x1 : Vec Ideal S256x64 .f32) :
    k1_pay1 x0 x1 = PlainDot.prod x0 x1 := by
  unfold k1_pay1
  simp only [shapeCast_self]
  exact PlainDot.matmul_zero_eq_prod plain none _ _

/-- The block indices over the grid: the left operand's and the result's row block is the point's number, every
    column block is 0, and the right operand's block is always (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem row_lt (t : Fin cfg1.N) (p : Fin 5000) : 5000 * t.val + p.val < 50000 := by
  have h : t.val < 10 := Nat.lt_of_lt_of_eq t.isLt N_1
  have := p.isLt; omega

/-- The left operand's block at point t is rows 5000·t … of the array. -/
theorem lhs_blk (c : Dev nD) (t : Fin cfg1.N) (p : Fin 5000) (k : Fin 256) :
    (iblk1 V c 0 t : Vec Ideal S5000x256 .f32) (ix2 p k)
      = (V c main_v49 : S50000x256.Idx → EReal) (ix2 ⟨5000 * t.val + p.val, row_lt t p⟩ k) := by
  obtain ⟨e0, e1, -⟩ := idx_facts t
  unfold iblk1
  rw [View.read_apply]
  show V c main_v49 _ = V c main_v49 _
  congr 1
  funext a
  apply Fin.ext
  match a with
  | ⟨0, _⟩ => show win1_0.index t (0 : Fin 2) * 5000 + 1 * p.val = 5000 * t.val + p.val; rw [e0]; omega
  | ⟨1, _⟩ => show win1_0.index t (1 : Fin 2) * 256 + 1 * k.val = k.val; rw [e1]; omega

/-- The right operand's block at every point is the whole array. -/
theorem rhs_blk (c : Dev nD) (t : Fin cfg1.N) :
    (iblk1 V c 1 t : Vec Ideal S256x64 .f32) = (V c main_arg4 : S256x64.Idx → EReal) := by
  obtain ⟨-, -, e2, e3, -⟩ := idx_facts t
  funext y
  unfold iblk1
  rw [View.read_apply]
  show V c main_arg4 _ = V c main_arg4 _
  congr 1
  funext a
  apply Fin.ext
  match a with
  | ⟨0, _⟩ => show win1_1.index t (0 : Fin 2) * 256 + 1 * (y 0).val = (y 0).val; rw [e2]; omega
  | ⟨1, _⟩ => show win1_1.index t (1 : Fin 2) * 64 + 1 * (y 1).val = (y 1).val; rw [e3]; omega

/-- WHAT POINT t WRITES BACK is block t of the product of the two whole arrays. -/
theorem flushed_eq (c : Dev nD) (t : Fin cfg1.N) :
    (dat1 V c).flushed 2 t = ((cfg1.win 2).blk t).view.read (Elt Ideal)
      (PlainDot.prod (V c main_v49 : S50000x256.Idx → EReal) (V c main_arg4 : S256x64.Idx → EReal)) := by
  show (cfg1.win 2).cut (grid1.coords t) ((dat1 V c).after 2 t) = _
  rw [after1_2]
  unfold out1_2
  rw [View.canon_unit_zero hz]
  simp only [View.ld_unit_zero (S := S5000x256) hz, View.ld_unit_zero (S := S256x64) hz]
  rw [pay_eq, rhs_blk V c t]
  obtain ⟨-, -, -, -, e4, e5⟩ := idx_facts t
  funext j
  obtain ⟨p, q, rfl⟩ : ∃ (p : Fin 5000) (q : Fin 64), j = ix2 p q := ⟨j 0, j 1, eq_ix2 j⟩
  rw [View.read_apply]
  have hemb : ((cfg1.win 2).blk t).view.emb (ix2 p q) = (ix2 ⟨5000 * t.val + p.val, row_lt t p⟩ q : S50000x64.Idx) := by
    funext a
    apply Fin.ext
    match a with
    | ⟨0, _⟩ => show win1_2.index t (0 : Fin 2) * 5000 + 1 * p.val = 5000 * t.val + p.val; rw [e4]; omega
    | ⟨1, _⟩ => show win1_2.index t (1 : Fin 2) * 64 + 1 * q.val = q.val; rw [e5]; omega
  rw [hemb]
  show PlainDot.prod (iblk1 V c 0 t : Vec Ideal S5000x256 .f32) (V c main_arg4 : S256x64.Idx → EReal) (ix2 p q) = _
  rw [PlainDot.prod_apply, PlainDot.prod_apply]
  exact Finset.sum_congr rfl fun k _ => by rw [lhs_blk V c t p k]

/-- An index of the result array is in point t's block iff each coordinate is in the block's range on its axis. -/
theorem mem_blk (t : Fin cfg1.N) (i : S50000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v50).slice (win1_2.rect t)).set ↔ _
  rw [View.set_slice_whole, Rect.mem_set_unit]
  exact Iff.rfl

/-- The ten row blocks tile the array: row r is in the block of point r / 5000. -/
theorem cover (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ : ∃ t : Fin cfg1.N, t.val = (i 0).val / 5000 :=
    ⟨⟨(i 0).val / 5000, by rw [show cfg1.N = 10 from N_1]; omega⟩, rfl⟩
  obtain ⟨-, -, -, -, e4, e5⟩ := idx_facts t
  refine ⟨t, flush1_2 t, ?_⟩
  rw [mem_blk]
  intro a
  match a with
  | ⟨0, _⟩ =>
    show win1_2.index t (0 : Fin 2) * 5000 ≤ (i 0).val ∧ (i 0).val < win1_2.index t (0 : Fin 2) * 5000 + 5000
    rw [e4, ht]; omega
  | ⟨1, _⟩ =>
    show win1_2.index t (1 : Fin 2) * 64 ≤ (i 1).val ∧ (i 1).val < win1_2.index t (1 : Fin 2) * 64 + 64
    rw [e5]; omega

/-- THE RESULT ARRAY after the region: the product of the two whole arrays as the region found them. -/
theorem array_eq (c : Dev nD) :
    (dat1 V c).arrAt 2 cfg1.N
      = PlainDot.prod (V c main_v49 : S50000x256.Idx → EReal) (V c main_arg4 : S256x64.Idx → EReal) :=
  (dat1 V c).arrAt_eq_of_cover 2 _ (fun t _ => flushed_eq V c t) cover

end Cert.KernelIdeal.Rows1

end
-- ==== Proof.BridgeDots.lean ====
/-
  The two matrix products, and the whole comparison. The reference computes each product by one host operation; the
  kernel's program by a grid of ten row blocks. On the extended reals both are the plain product of the two whole
  arrays (entry (p, q) = Σ_k A(p, k) · B(k, q)): the host's by the dimension numbers' plain form, the kernel's because
  its ten blocks tile the rows. So where the two programs' contents agree on a product's operands they agree on its
  result, and every other buffer is left as it was by both. Chained with the shared host stretches: from memories
  that agree on the six arguments, the reference's result buffer and the kernel program's end with the same contents.
-/
import proofs.«105264_j19774029431674_1_alg».proof.Proof.BridgeStretches
import proofs.«105264_j19774029431674_1_alg».proof.Proof.BridgeKeeps
import proofs.«105264_j19774029431674_1_alg».proof.Proof.Gen.KernelIdeal.Frame
import proofs.«105264_j19774029431674_1_alg».proof.Proof.Region0
import proofs.«105264_j19774029431674_1_alg».proof.Proof.Region1
import proofs.«105264_j19774029431674_1_alg».proof.Proof.LibMatProd

set_option maxRecDepth 16384

noncomputable section

namespace Cert.Bridge

open Idealize.ShloMosaic Idealize.ShloMosaic.TcCoe Idealize.ShloMosaic.StableHlo Idealize.SL.Sem

/-- The reference's two products have the plain row-by-column dimension numbers. -/
theorem plainR1 : PlainDot.IsPlain Cert.ReferenceIdeal.dot_S50000x128_S128x256_S50000x256_1_0_0_1_n_n := ⟨rfl, rfl, rfl, rfl, rfl, rfl⟩
theorem plainR2 : PlainDot.IsPlain Cert.ReferenceIdeal.dot_S50000x256_S256x64_S50000x64_1_0_0_1_n_n := ⟨rfl, rfl, rfl, rfl, rfl, rfl⟩

set_option maxRecDepth 8192 in
set_option maxHeartbeats 35600000 in
/-- The reference's result, as its run states it, is what its 89 operations leave in the result buffer (whatever
    the float family: both are the same operations of the same launch contents). -/
theorem res_unfold {F : FTy → Type} [FloatOps F] (m' : (ℓ : Loc Cert.ReferenceIdeal.nD Cert.ReferenceIdeal.τ Cert.ReferenceIdeal.sig) → Buf (Elt F) ℓ) (c : Dev Cert.ReferenceIdeal.nD) :
    Cert.ReferenceIdeal.ValueP.res_main_v67 m' c = after (Cert.ReferenceIdeal.ValueP.ops (F := F)) (launchContents m' c) (Proc.devRef .tc Cert.ReferenceIdeal.main_v67) := by
  symm
  after_results_simp <;> rfl

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-! ## The first product: the reference's operation against the kernel's first region -/

/-- Where the contents agree on x and W1, the reference's product x · W1 is what the kernel's ten row blocks leave in
    the first region's result array: both are the plain product of the two whole arrays. -/
theorem D1_main_v32 (Wr : Valuation Cert.ReferenceIdeal.τ Cert.ReferenceIdeal.sig (Elt Ideal)) (h_main_arg0 : Wr (Proc.devRef .tc Cert.ReferenceIdeal.main_arg0) = Cert.KernelIdeal.Gen.W3 m ρ c (Proc.devRef .tc Cert.KernelIdeal.main_arg0)) (h_main_arg2 : Wr (Proc.devRef .tc Cert.ReferenceIdeal.main_arg2) = Cert.KernelIdeal.Gen.W3 m ρ c (Proc.devRef .tc Cert.KernelIdeal.main_arg2)) :
    after (l1 (F := Ideal)) Wr (Proc.devRef .tc Cert.ReferenceIdeal.main_v32) = Cert.KernelIdeal.Gen.W4 m ρ c (Proc.devRef .tc Cert.KernelIdeal.main_v32) := by
  simp only [lA1, lA2, l1, lB, l2, lC, Cert.ReferenceIdeal.ValueP.ops, List.take_succ_cons, List.take_zero, List.drop_succ_cons, List.drop_zero]
  after_results_simp
  rw [h_main_arg0, h_main_arg2]
  simp only [Host.dotGeneral]
  rw [PlainDot.dotGeneral_eq_prod plainR1]
  exact ((Cert.KernelIdeal.Gen.W4_arr m ρ c 2).trans (Cert.KernelIdeal.Rows0.array_eq (Cert.KernelIdeal.Gen.V3 m ρ) c)).symm

/-! ## The second product: the reference's operation against the kernel's second region -/

/-- Where the contents agree on the first layer's output h and on W2, the reference's product h · W2 is what the
    kernel's ten row blocks leave in the second region's result array. -/
theorem D2_main_v50 (Wr : Valuation Cert.ReferenceIdeal.τ Cert.ReferenceIdeal.sig (Elt Ideal)) (h_main_v49 : Wr (Proc.devRef .tc Cert.ReferenceIdeal.main_v49) = Cert.KernelIdeal.Gen.W6 m ρ c (Proc.devRef .tc Cert.KernelIdeal.main_v49)) (h_main_arg4 : Wr (Proc.devRef .tc Cert.ReferenceIdeal.main_arg4) = Cert.KernelIdeal.Gen.W6 m ρ c (Proc.devRef .tc Cert.KernelIdeal.main_arg4)) :
    after (l2 (F := Ideal)) Wr (Proc.devRef .tc Cert.ReferenceIdeal.main_v50) = Cert.KernelIdeal.Gen.W7 m ρ c (Proc.devRef .tc Cert.KernelIdeal.main_v50) := by
  simp only [lA1, lA2, l1, lB, l2, lC, Cert.ReferenceIdeal.ValueP.ops, List.take_succ_cons, List.take_zero, List.drop_succ_cons, List.drop_zero]
  after_results_simp
  rw [h_main_v49, h_main_arg4]
  simp only [Host.dotGeneral]
  rw [PlainDot.dotGeneral_eq_prod plainR2]
  exact ((Cert.KernelIdeal.Gen.W7_arr m ρ c 2).trans (Cert.KernelIdeal.Rows1.array_eq (Cert.KernelIdeal.Gen.V6 m ρ) c)).symm

/-! ## The chain -/

/-- From memories that agree on the six arguments, the reference's result buffer after its 89 operations holds what
    the kernel program's result buffer holds after its last host stretch. -/
theorem result_eq (m' : (ℓ : Loc Cert.ReferenceIdeal.nD Cert.ReferenceIdeal.τ Cert.ReferenceIdeal.sig) → Buf (Elt Ideal) ℓ)
    (g_main_arg0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (g_main_arg1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (g_main_arg2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (g_main_arg3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (g_main_arg4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (g_main_arg5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    after (Cert.ReferenceIdeal.ValueP.ops (F := Ideal)) (launchContents m' c) (Proc.devRef .tc Cert.ReferenceIdeal.main_v67) = Cert.KernelIdeal.Gen.W9 m ρ c (Proc.devRef .tc Cert.KernelIdeal.main_v67) := by
  rw [after_ops]
  -- the kernel program's contents at its first region, with its first host stretch cut after the two index lists
  have e3 : Cert.KernelIdeal.Gen.W3 m ρ c = after Cert.KernelIdeal.Gen.hostOps0_2 (after Cert.KernelIdeal.Gen.hostOps0_1
      (after (Cert.KernelIdeal.Gen.hostOps0.drop 7) (after (Cert.KernelIdeal.Gen.hostOps0.take 7) (Cert.KernelIdeal.Gen.W0 m ρ c)))) := by
    show after Cert.KernelIdeal.Gen.hostOps0_2 (after Cert.KernelIdeal.Gen.hostOps0_1 (after Cert.KernelIdeal.Gen.hostOps0 (Cert.KernelIdeal.Gen.W0 m ρ c))) = _
    rw [after_hostOps0]
  -- the two index lists
  have p_v3 := A1_main_v3 (Cert.KernelIdeal.Gen.W0 m ρ c) (launchContents m' c) g_main_arg1
  have p_v6 := A1_main_v6 (Cert.KernelIdeal.Gen.W0 m ρ c) (launchContents m' c) g_main_arg1
  have p_0 := A1_main_arg0 (Cert.KernelIdeal.Gen.W0 m ρ c) (launchContents m' c) g_main_arg0
  have p_2 := A1_main_arg2 (Cert.KernelIdeal.Gen.W0 m ρ c) (launchContents m' c) g_main_arg2
  have p_3 := A1_main_arg3 (Cert.KernelIdeal.Gen.W0 m ρ c) (launchContents m' c) g_main_arg3
  have p_4 := A1_main_arg4 (Cert.KernelIdeal.Gen.W0 m ρ c) (launchContents m' c) g_main_arg4
  have p_5 := A1_main_arg5 (Cert.KernelIdeal.Gen.W0 m ρ c) (launchContents m' c) g_main_arg5
  -- the rest of the normalisation
  have a_v31 := (A2_main_v31 (after (Cert.KernelIdeal.Gen.hostOps0.take 7) (Cert.KernelIdeal.Gen.W0 m ρ c)) _ p_v3 p_v6).trans (congrFun e3 _).symm
  have a_v3 := (A2_main_v3 (after (Cert.KernelIdeal.Gen.hostOps0.take 7) (Cert.KernelIdeal.Gen.W0 m ρ c)) _ p_v3).trans (congrFun e3 _).symm
  have a_v6 := (A2_main_v6 (after (Cert.KernelIdeal.Gen.hostOps0.take 7) (Cert.KernelIdeal.Gen.W0 m ρ c)) _ p_v6).trans (congrFun e3 _).symm
  have a_0 := (A2_main_arg0 (after (Cert.KernelIdeal.Gen.hostOps0.take 7) (Cert.KernelIdeal.Gen.W0 m ρ c)) _ p_0).trans (congrFun e3 _).symm
  have a_2 := (A2_main_arg2 (after (Cert.KernelIdeal.Gen.hostOps0.take 7) (Cert.KernelIdeal.Gen.W0 m ρ c)) _ p_2).trans (congrFun e3 _).symm
  have a_3 := (A2_main_arg3 (after (Cert.KernelIdeal.Gen.hostOps0.take 7) (Cert.KernelIdeal.Gen.W0 m ρ c)) _ p_3).trans (congrFun e3 _).symm
  have a_4 := (A2_main_arg4 (after (Cert.KernelIdeal.Gen.hostOps0.take 7) (Cert.KernelIdeal.Gen.W0 m ρ c)) _ p_4).trans (congrFun e3 _).symm
  have a_5 := (A2_main_arg5 (after (Cert.KernelIdeal.Gen.hostOps0.take 7) (Cert.KernelIdeal.Gen.W0 m ρ c)) _ p_5).trans (congrFun e3 _).symm
  -- the first product
  have b_v32 := D1_main_v32 m ρ c _ a_0 a_2
  have b_v3 := D1_main_v3 m ρ c _ a_v3
  have b_v6 := D1_main_v6 m ρ c _ a_v6
  have b_v31 := D1_main_v31 m ρ c _ a_v31
  have b_3 := D1_main_arg3 m ρ c _ a_3
  have b_4 := D1_main_arg4 m ρ c _ a_4
  have b_5 := D1_main_arg5 m ρ c _ a_5
  -- between the products
  have c_v49 := B_main_v49 (Cert.KernelIdeal.Gen.W4 m ρ c) _ b_v32 b_v3 b_v6 b_v31 b_3
  have c_v3 := B_main_v3 (Cert.KernelIdeal.Gen.W4 m ρ c) _ b_v3
  have c_v6 := B_main_v6 (Cert.KernelIdeal.Gen.W4 m ρ c) _ b_v6
  have c_v31 := B_main_v31 (Cert.KernelIdeal.Gen.W4 m ρ c) _ b_v31
  have c_4 := B_main_arg4 (Cert.KernelIdeal.Gen.W4 m ρ c) _ b_4
  have c_5 := B_main_arg5 (Cert.KernelIdeal.Gen.W4 m ρ c) _ b_5
  -- the second product
  have d_v50 := D2_main_v50 m ρ c _ c_v49 c_4
  have d_v3 := D2_main_v3 m ρ c _ c_v3
  have d_v6 := D2_main_v6 m ρ c _ c_v6
  have d_v31 := D2_main_v31 m ρ c _ c_v31
  have d_5 := D2_main_arg5 m ρ c _ c_5
  -- after it
  exact C_main_v67 (Cert.KernelIdeal.Gen.W7 m ρ c) _ d_v50 d_v3 d_v6 d_v31 d_5

end Cert.Bridge

end
-- ==== Proof.lean ====
/-
  A two-layer graph convolution: out = relu(Â · relu(Â · (x W1) + b1) W2 + b2) with Â the symmetrically normalised
  adjacency with self loops, applied edge by edge (gather the source row, scale by the edge's factor, scatter-add into
  the destination row). The kernel's program and the reference run the same host operations; they differ only in the
  two dense products, x · W1 and h · W2, which the kernel's program computes on a grid of ten blocks of 5000 rows,
  narrowing both operands to bf16 and accumulating in f32 from zero, where the reference has one host product each.
  On the extended reals the narrowing is the identity and both are the plain product Σ_k A(p, k) · B(k, q); the ten
  row blocks tile the 50000 rows exactly. So the two programs end with the same result array from memories that agree
  on the arguments. No law of the extended reals beyond that is used, so the finiteness of the inputs is never opened.
  The three frames are the generated ones (the reference's is its run with the result dropped); the idealization
  rewrote nothing, so there is nothing to preserve.
-/
import proofs.«105264_j19774029431674_1_alg».proof.Defs
import proofs.«105264_j19774029431674_1_alg».proof.Proof.Gen.Kernel
import proofs.«105264_j19774029431674_1_alg».proof.Proof.Gen.Kernel.Frame
import proofs.«105264_j19774029431674_1_alg».proof.Proof.Gen.KernelIdeal
import proofs.«105264_j19774029431674_1_alg».proof.Proof.Gen.KernelIdeal.Frame
import proofs.«105264_j19774029431674_1_alg».proof.Proof.Gen.ReferenceIdeal
import proofs.«105264_j19774029431674_1_alg».proof.Proof.Gen.Pre_finite_inputs
import proofs.«105264_j19774029431674_1_alg».proof.Proof.RefRun
import proofs.«105264_j19774029431674_1_alg».proof.Proof.RunValue
import proofs.«105264_j19774029431674_1_alg».proof.Proof.BridgeDots
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs run, and the result both end with is what the kernel program's last host stretch leaves in its
    result buffer: the reference's result is the same function of the arguments. -/
theorem algebraic : Cert.algebraic_KernelIdeal_ReferenceIdeal := by
  intro m ρ m' ρ' _ hagree
  refine ⟨fun c => Cert.KernelIdeal.Gen.W9 m ρ c (Proc.devRef .tc Cert.KernelIdeal.main_v67),
    Cert.KernelIdeal.GenP.run_value (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.Bridge.res_unfold]
  obtain ⟨g0, g1, g2, g3, g4, g5⟩ := hagree c
  exact Cert.Bridge.result_eq m ρ c m' g0 g1 g2 g3 g4 g5

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
